-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000 : Shape := ⟨1, ![1600000]⟩
abbrev S1000x64 : Shape := ⟨2, ![1000, 64]⟩
abbrev S64x32 : Shape := ⟨2, ![64, 32]⟩
abbrev S32 : Shape := ⟨1, ![32]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : IVec S100000 32) (main_arg1 : IVec S2x1600000 32) (main_arg2 : FVec F S1600000 .f32) (main_arg3 : FVec F S1000x64 .f32) (main_arg4 : FVec F S64x32 .f32) (main_arg5 : FVec F S32 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S1000x64 .f32 := Host.absf main_arg3
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S100000 : Shape := ⟨1, ![100000]⟩
abbrev S2x1600000 : Shape := ⟨2, ![2, 1600000]⟩
abbrev S1600000 : Shape := ⟨1, ![1600000]⟩
abbrev S1000x64 : Shape := ⟨2, ![1000, 64]⟩
abbrev S64x32 : Shape := ⟨2, ![64, 32]⟩
abbrev S32 : Shape := ⟨1, ![32]⟩
abbrev S_ : Shape := ⟨0, ![]⟩
abbrev S100000x1 : Shape := ⟨2, ![100000, 1]⟩
abbrev S100000x64 : Shape := ⟨2, ![100000, 64]⟩
abbrev S100000x32 : Shape := ⟨2, ![100000, 32]⟩
abbrev S10000x64 : Shape := ⟨2, ![10000, 64]⟩
abbrev S10000x32 : Shape := ⟨2, ![10000, 32]⟩
abbrev S1x1600000 : Shape := ⟨2, ![1, 1600000]⟩
abbrev S1700000 : Shape := ⟨1, ![1700000]⟩
abbrev S1700000x1 : Shape := ⟨2, ![1700000, 1]⟩
abbrev S1700000x32 : Shape := ⟨2, ![1700000, 32]⟩
abbrev S1x32 : Shape := ⟨2, ![1, 32]⟩

abbrev nBuf : Space → Nat
  | .hbm => 89
  | .vmem => 5
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S1600000, .f32⟩
  | .hbm, ⟨3, _⟩ => ⟨S1000x64, .f32⟩
  | .hbm, ⟨4, _⟩ => ⟨S64x32, .f32⟩
  | .hbm, ⟨5, _⟩ => ⟨S32, .f32⟩
  | .hbm, ⟨6, _⟩ => ⟨S_, .i32⟩
  | .hbm, ⟨7, _⟩ => ⟨S100000, .i32⟩
  | .hbm, ⟨8, _⟩ => ⟨S100000, .i1⟩
  | .hbm, ⟨9, _⟩ => ⟨S_, .i32⟩
  | .hbm, ⟨10, _⟩ => ⟨S100000, .i32⟩
  | .hbm, ⟨11, _⟩ => ⟨S100000, .i32⟩
  | .hbm, ⟨12, _⟩ => ⟨S100000, .i32⟩
  | .hbm, ⟨13, _⟩ => ⟨S100000x1, .i32⟩
  | .hbm, ⟨14, _⟩ => ⟨S100000x64, .f32⟩
  | .hbm, ⟨15, _⟩ => ⟨S100000x32, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S100000, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000, .f32⟩
  | .hbm, ⟨64, _⟩ => ⟨S1700000, .f32⟩
  | .hbm, ⟨65, _⟩ => ⟨S1700000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x32, .f32⟩
  | .hbm, ⟨75, _⟩ => ⟨S1700000x32, .f32⟩
  | .hbm, ⟨76, _⟩ => ⟨S1700000x32, .f32⟩
  | .hbm, ⟨77, _⟩ => ⟨S_, .f32⟩
  | .hbm, ⟨78, _⟩ => ⟨S100000x32, .f32⟩
  | .hbm, ⟨79, _⟩ => ⟨S1700000x1, .i32⟩
  | .hbm, ⟨80, _⟩ => ⟨S100000x32, .f32⟩
  | .hbm, ⟨81, _⟩ => ⟨S1x32, .f32⟩
  | .hbm, ⟨82, _⟩ => ⟨S100000x32, .f32⟩
  | .hbm, ⟨83, _⟩ => ⟨S100000x32, .f32⟩
  | .hbm, ⟨84, _⟩ => ⟨S_, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | .local _ .vmem, ⟨0, _⟩ => ⟨S10000x64, .f32⟩
  | .local _ .vmem, ⟨1, _⟩ => ⟨S10000x64, .f32⟩
  | .local _ .vmem, ⟨2, _⟩ => ⟨S64x32, .f32⟩
  | .local _ .vmem, ⟨3, _⟩ => ⟨S10000x32, .f32⟩
  | .local _ .vmem, ⟨4, _⟩ => ⟨S10000x32, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  gather_S1000x64_S100000x1_S100000x64_1_0_n_n_0_1_164_wf : GatherDims.WF S1000x64 S100000x1 S100000x64 [1] [0] [] [0] [] 1 ![1, 64]
  dot_S10000x64_S64x32_S10000x32_1_0_0_1_n_n_wf : DotDims.WF S10000x64 S64x32 S10000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)

variable [Facts₀]

def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000 : Shape := ⟨1, ![1600000]⟩
abbrev S1000x64 : Shape := ⟨2, ![1000, 64]⟩
abbrev S64x32 : Shape := ⟨2, ![64, 32]⟩
abbrev S32 : Shape := ⟨1, ![32]⟩
abbrev S_ : Shape := ⟨0, ![]⟩
abbrev S100000x1 : Shape := ⟨2, ![100000, 1]⟩
abbrev S100000x64 : Shape := ⟨2, ![100000, 64]⟩
abbrev S100000x32 : Shape := ⟨2, ![100000, 32]⟩
abbrev S1x1600000 : Shape := ⟨2, ![1, 1600000]⟩
abbrev S1700000 : Shape := ⟨1, ![1700000]⟩
abbrev S1700000x1 : Shape := ⟨2, ![1700000, 1]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S1600000, .f32⟩
  | .hbm, ⟨3, _⟩ => ⟨S1000x64, .f32⟩
  | .hbm, ⟨4, _⟩ => ⟨S64x32, .f32⟩
  | .hbm, ⟨5, _⟩ => ⟨S32, .f32⟩
  | .hbm, ⟨6, _⟩ => ⟨S_, .i32⟩
  | .hbm, ⟨7, _⟩ => ⟨S100000, .i32⟩
  | .hbm, ⟨8, _⟩ => ⟨S100000, .i1⟩
  | .hbm, ⟨9, _⟩ => ⟨S_, .i32⟩
  | .hbm, ⟨10, _⟩ => ⟨S100000, .i32⟩
  | .hbm, ⟨11, _⟩ => ⟨S100000, .i32⟩
  | .hbm, ⟨12, _⟩ => ⟨S100000, .i32⟩
  | .hbm, ⟨13, _⟩ => ⟨S100000x1, .i32⟩
  | .hbm, ⟨14, _⟩ => ⟨S100000x64, .f32⟩
  | .hbm, ⟨15, _⟩ => ⟨S100000x32, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S100000, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000, .f32⟩
  | .hbm, ⟨64, _⟩ => ⟨S1700000, .f32⟩
  | .hbm, ⟨65, _⟩ => ⟨S1700000x1, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x32, .f32⟩
  | .hbm, ⟨75, _⟩ => ⟨S1700000x32, .f32⟩
  | .hbm, ⟨76, _⟩ => ⟨S1700000x32, .f32⟩
  | .hbm, ⟨77, _⟩ => ⟨S_, .f32⟩
  | .hbm, ⟨78, _⟩ => ⟨S100000x32, .f32⟩
  | .hbm, ⟨79, _⟩ => ⟨S1700000x1, .i32⟩
  | .hbm, ⟨80, _⟩ => ⟨S100000x32, .f32⟩
  | .hbm, ⟨81, _⟩ => ⟨S1x32, .f32⟩
  | .hbm, ⟨82, _⟩ => ⟨S100000x32, .f32⟩
  | .hbm, ⟨83, _⟩ => ⟨S100000x32, .f32⟩
  | .hbm, ⟨84, _⟩ => ⟨S_, .f32⟩
  | .hbm, ⟨85, _⟩ => ⟨S32, .f32⟩
  | .hbm, ⟨86, _⟩ => ⟨S_, .f32⟩
  | .hbm, ⟨87, _⟩ => ⟨S32, .f32⟩
  | .hbm, ⟨88, _⟩ => ⟨S32, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  gather_S1000x64_S100000x1_S100000x64_1_0_n_n_0_1_164_wf : GatherDims.WF S1000x64 S100000x1 S100000x64 [1] [0] [] [0] [] 1 ![1, 64]
  dot_S100000x64_S64x32_S100000x32_1_0_0_1_n_n_wf : DotDims.WF S100000x64 S64x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibWriteList.lean ====
/-
  General facts about a stretch of host operations and the buffers it writes, stated over a LITERAL LIST of the
  references the stretch writes. Whether a reference occurs in such a list is decided in one pass over references;
  from that one fact per stretch follow: the stretch keeps every buffer outside the list; a concatenation of
  stretches keeps every buffer outside the lists' concatenation; and no operation of the stretch writes a given
  reference outside the list.
-/
import Idealize.ShloMosaic.Lib.StableHlo.Run

noncomputable section

namespace Idealize.ShloMosaic.StableHlo.WriteList

open Idealize.ShloMosaic Idealize.ShloMosaic.StableHlo

variable {τ : Topo} {sig : RefSig} {Val : EltTy → Type}

/-- The device buffers named by a list of TensorCore references. -/
abbrev bufsOf (W : List (Ref sig .tc)) : Finset (DevRef τ sig) := (W.map (Proc.devRef (τ := τ) .tc)).toFinset

/-- Every operation of the stretch writes only buffers the list `W` names. -/
def WritesWithin (ops : List (HloOp τ sig Val)) (W : List (Ref sig .tc)) : Prop :=
  ops.Forall fun op => op.writes ⊆ bufsOf (τ := τ) W

/-- A single result buffer is named by any list it occurs in. -/
theorem singleton_sub {W : List (Ref sig .tc)} {y : Ref sig .tc} (h : y ∈ W) :
    ({Proc.devRef (τ := τ) .tc y} : Finset (DevRef τ sig)) ⊆ bufsOf (τ := τ) W :=
  Finset.singleton_subset_iff.mpr (List.mem_toFinset.mpr (List.mem_map_of_mem h))

/-- A longer list names at least as much. -/
theorem bufsOf_mono {W W' : List (Ref sig .tc)} (h : ∀ r ∈ W, r ∈ W') : bufsOf (τ := τ) W ⊆ bufsOf (τ := τ) W' := by
  intro b hb
  obtain ⟨y, hy, rfl⟩ := List.mem_map.mp (List.mem_toFinset.mp hb)
  exact List.mem_toFinset.mpr (List.mem_map_of_mem (h y hy))

theorem WritesWithin.mono {ops : List (HloOp τ sig Val)} {W W' : List (Ref sig .tc)} (h : WritesWithin ops W)
    (hW : ∀ r ∈ W, r ∈ W') : WritesWithin ops W' :=
  List.forall_iff_forall_mem.mpr fun op hop => (List.forall_iff_forall_mem.mp h op hop).trans (bufsOf_mono hW)

/-- Two stretches one after the other write within the two lists' concatenation. -/
theorem WritesWithin.append {ops ops' : List (HloOp τ sig Val)} {W W' : List (Ref sig .tc)}
    (h : WritesWithin ops W) (h' : WritesWithin ops' W') : WritesWithin (ops ++ ops') (W ++ W') :=
  List.forall_iff_forall_mem.mpr fun op hop => by
    rcases List.mem_append.mp hop with ho | ho
    · exact (List.forall_iff_forall_mem.mp h op ho).trans (bufsOf_mono fun r hr => List.mem_append_left _ hr)
    · exact (List.forall_iff_forall_mem.mp h' op ho).trans (bufsOf_mono fun r hr => List.mem_append_right _ hr)

/-- No operation of the stretch writes a reference outside the list. -/
theorem WritesWithin.not_mem_writes {ops : List (HloOp τ sig Val)} {W : List (Ref sig .tc)} (h : WritesWithin ops W)
    {r : Ref sig .tc} (hr : r ∉ W) : ∀ op ∈ ops, Proc.devRef (τ := τ) .tc r ∉ op.writes := fun op hop hb => by
  obtain ⟨y, hy, he⟩ := List.mem_map.mp (List.mem_toFinset.mp ((List.forall_iff_forall_mem.mp h) op hop hb))
  exact hr (Proc.devRef_injective _ he ▸ hy)

/-- The stretch keeps the contents of every reference outside the list. -/
theorem WritesWithin.after_eq {ops : List (HloOp τ sig Val)} {W : List (Ref sig .tc)} (h : WritesWithin ops W)
    (V : Valuation τ sig Val) {r : Ref sig .tc} (hr : r ∉ W) :
    after ops V (Proc.devRef .tc r) = V (Proc.devRef .tc r) :=
  after_of_forall_not_mem ops V (h.not_mem_writes hr)

end Idealize.ShloMosaic.StableHlo.WriteList

end
-- ==== Proof.KernelHost.lean ====
/-
  The host side of the program's run, around its one matrix-product region.

  Before the region nine host operations normalise the node indices (a negative index is shifted by the table's
  1000 rows) and gather the embedding rows: they write nine buffers of their own and none of the six arguments.
  After the region seventy-three host operations (five stretches: the edge lists with their self loops and the
  degrees; two selections guarding the reciprocal square root; the edge norms, the messages, their scatter-sum,
  the bias and the mean over the nodes) each write one buffer of their own: never an argument, never an array the
  region stages (the gathered rows, the weight, the product). So every argument ends as it was launched, and the
  region finds the arguments as launched.
-/
import proofs.«108833_j80487687127273_1_alg».proof.Proof.Gen.Kernel.Launch
import proofs.«108833_j80487687127273_1_alg».proof.Proof.LibWriteList
import Idealize.ShloMosaic.Lib.Pipeline.FrameSuffix

noncomputable section

namespace Cert.Kernel.Host

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)
open Idealize.ShloMosaic.StableHlo.WriteList
open Cert.Kernel Cert.Kernel.Gen

variable {F : FTy → Type} [FloatOps F]

/-! ## Which buffers each stretch writes -/

/-- The nine buffers written before the region. -/
abbrev wroteBefore : List (Ref sig .tc) := [
    main_c, main_v0, main_v1, main_c_0, main_v2, main_v3, main_v4, main_v5,
    main_v6 ]

/-- The seventy-three buffers written after the region, stretch by stretch. -/
abbrev wroteAfter : List (Ref sig .tc) := [
    main_v8, main_v9, main_v10, main_v11, main_v12, main_v13, main_v14, main_cst,
    main_v15, main_v16, main_cst_1, main_v17, main_v18, main_v19, main_cst_2, main_v20,
    main_v21, main_cst_3, main_v22, main_v23, main_cst_4, main_call0_v0, main_call0_v1, main_v24,
    main_v25, main_cst_5, main_call1_v0, main_call1_v1, main_v26, main_c_6, main_v27, main_v28,
    main_c_7, main_v29, main_v30, main_v31, main_v32, main_v33, main_v34, main_c_8,
    main_v35, main_v36, main_c_9, main_v37, main_v38, main_v39, main_v40, main_v41,
    main_v42, main_v43, main_c_10, main_v44, main_v45, main_c_11, main_v46, main_v47,
    main_v48, main_v49, main_v50, main_v51, main_v52, main_cst_12, main_v53, main_v54,
    main_v55, main_v56, main_v57, main_v58, main_cst_13, main_v59, main_cst_14, main_v60,
    main_v61 ]

theorem before_writes : WritesWithin (hostOps0 : List (HloOp τ sig (Elt F))) wroteBefore := by
  unfold WritesWithin
  simp only [hostOps0, List.Forall, StableHlo.nullary_writes, StableHlo.unary_writes, StableHlo.binary_writes,
    StableHlo.ternary_writes, StableHlo.reshape_writes]
  repeat' apply And.intro
  all_goals exact singleton_sub (by decide)

theorem after_writes1 : WritesWithin (hostOps1 : List (HloOp τ sig (Elt F))) wroteAfter := by
  unfold WritesWithin
  simp only [hostOps1, List.Forall, StableHlo.nullary_writes, StableHlo.unary_writes, StableHlo.binary_writes,
    StableHlo.ternary_writes, StableHlo.reshape_writes]
  repeat' apply And.intro
  all_goals exact singleton_sub (by decide)

theorem after_writes2 : WritesWithin (hostOps1_1 : List (HloOp τ sig (Elt F))) wroteAfter := by
  unfold WritesWithin
  simp only [hostOps1_1, List.Forall, StableHlo.nullary_writes, StableHlo.unary_writes, StableHlo.binary_writes,
    StableHlo.ternary_writes, StableHlo.reshape_writes]
  repeat' apply And.intro
  all_goals exact singleton_sub (by decide)

theorem after_writes3 : WritesWithin (hostOps1_2 : List (HloOp τ sig (Elt F))) wroteAfter := by
  unfold WritesWithin
  simp only [hostOps1_2, List.Forall, StableHlo.nullary_writes, StableHlo.unary_writes, StableHlo.binary_writes,
    StableHlo.ternary_writes, StableHlo.reshape_writes]
  repeat' apply And.intro
  all_goals exact singleton_sub (by decide)

theorem after_writes4 : WritesWithin (hostOps1_3 : List (HloOp τ sig (Elt F))) wroteAfter := by
  unfold WritesWithin
  simp only [hostOps1_3, List.Forall, StableHlo.nullary_writes, StableHlo.unary_writes, StableHlo.binary_writes,
    StableHlo.ternary_writes, StableHlo.reshape_writes]
  repeat' apply And.intro
  all_goals exact singleton_sub (by decide)

theorem after_writes5 : WritesWithin (hostOps1_4 : List (HloOp τ sig (Elt F))) wroteAfter := by
  unfold WritesWithin
  simp only [hostOps1_4, List.Forall, StableHlo.nullary_writes, StableHlo.unary_writes, StableHlo.binary_writes,
    StableHlo.ternary_writes, StableHlo.reshape_writes]
  repeat' apply And.intro
  all_goals exact singleton_sub (by decide)

/-! ## The stretches after the region, taken together -/

/-- The five stretches after the region, in order. -/
abbrev tailOps : List (List (HloOp τ sig (Elt F))) := [hostOps1, hostOps1_1, hostOps1_2, hostOps1_3, hostOps1_4]

/-- A property of every operation of each of the five stretches holds of every operation after the region. -/
theorem tail_all {P : HloOp τ sig (Elt F) → Prop}
    (h1 : (hostOps1 : List (HloOp τ sig (Elt F))).Forall P) (h2 : (hostOps1_1 : List (HloOp τ sig (Elt F))).Forall P)
    (h3 : (hostOps1_2 : List (HloOp τ sig (Elt F))).Forall P) (h4 : (hostOps1_3 : List (HloOp τ sig (Elt F))).Forall P)
    (h5 : (hostOps1_4 : List (HloOp τ sig (Elt F))).Forall P) :
    ∀ ops ∈ (tailOps : List (List (HloOp τ sig (Elt F)))), ∀ op ∈ ops, P op := by
  intro ops hops op hop
  simp only [tailOps, List.mem_cons, List.not_mem_nil, or_false] at hops
  rcases hops with rfl | rfl | rfl | rfl | rfl
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop

/-- All seventy-three operations write within the one list. -/
theorem tail_writes : WritesWithin (tailOps : List (List (HloOp τ sig (Elt F)))).flatten wroteAfter :=
  List.forall_iff_forall_mem.mpr fun op hop => by
    obtain ⟨ops, hops, h⟩ := List.mem_flatten.mp hop
    exact tail_all (P := fun op => op.writes ⊆ bufsOf (τ := τ) wroteAfter)
      after_writes1 after_writes2 after_writes3 after_writes4 after_writes5 ops hops op h

/-- An operation that touches TensorCore references only touches, after a region that prefetches nothing, only
    arrays of the region and buffers that bypass it. -/
theorem within_tail {ops : List (HloOp τ sig (Elt F))} (h : ops.Forall fun op => op.bufs ⊆ StableHlo.tcRefs τ sig) :
    ops.Forall fun op => op.bufs ⊆ Pipeline.tailRefs sig Pipeline.Prefetch.none spec0 := by
  rw [Pipeline.tailRefs_none spec0 launch0.win.arr_unscoped]
  exact List.forall_iff_forall_mem.mpr fun op hop => Pipeline.sub_ucRefs op (List.forall_iff_forall_mem.mp h op hop)

theorem tail_sub : ∀ ops ∈ (tailOps : List (List (HloOp τ sig (Elt F)))), ∀ op ∈ ops,
    op.bufs ⊆ Pipeline.tailRefs sig Pipeline.Prefetch.none spec0 :=
  tail_all (within_tail hostOps1_sub) (within_tail hostOps1_1_sub) (within_tail hostOps1_2_sub)
    (within_tail hostOps1_3_sub) (within_tail hostOps1_4_sub)

/-- No host operation allocates. -/
theorem before_fresh : (hostOps0 : List (HloOp τ sig (Elt F))).Forall fun op => op.fresh = ∅ := by
  simp only [List.Forall]; repeat' constructor
theorem after_fresh1 : (hostOps1 : List (HloOp τ sig (Elt F))).Forall fun op => op.fresh = ∅ := by
  simp only [List.Forall]; repeat' constructor
theorem after_fresh2 : (hostOps1_1 : List (HloOp τ sig (Elt F))).Forall fun op => op.fresh = ∅ := by
  simp only [List.Forall]; repeat' constructor
theorem after_fresh3 : (hostOps1_2 : List (HloOp τ sig (Elt F))).Forall fun op => op.fresh = ∅ := by
  simp only [List.Forall]; repeat' constructor
theorem after_fresh4 : (hostOps1_3 : List (HloOp τ sig (Elt F))).Forall fun op => op.fresh = ∅ := by
  simp only [List.Forall]; repeat' constructor
theorem after_fresh5 : (hostOps1_4 : List (HloOp τ sig (Elt F))).Forall fun op => op.fresh = ∅ := by
  simp only [List.Forall]; repeat' constructor

theorem tail_fresh : ∀ ops ∈ (tailOps : List (List (HloOp τ sig (Elt F)))), ∀ op ∈ ops, op.fresh = ∅ :=
  tail_all after_fresh1 after_fresh2 after_fresh3 after_fresh4 after_fresh5

/-- None of the three arrays the region stages (the gathered rows, the weight, the product) is written after it. -/
theorem arrays_not_after : ∀ w, Pipeline.arrRef spec0 w ∉ wroteAfter := by decide

theorem tail_keeps : ∀ ops ∈ (tailOps : List (List (HloOp τ sig (Elt F)))), ∀ op ∈ ops,
    ∀ w, Proc.devRef .tc (Pipeline.arrRef spec0 w) ∉ op.writes := fun ops hops op hop w =>
  (tail_writes (F := F)).not_mem_writes (arrays_not_after w) op (List.mem_flatten.mpr ⟨ops, hops, hop⟩)

/-! ## The buffers at the region's entry and at the program's end -/

variable (m : (ℓ : Loc nD τ sig) → Buf (Elt F) ℓ)

/-- Core `c`'s buffers when the region is entered: the launch contents after the nine operations before it. -/
abbrev entryVal (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entryVal m c (Proc.devRef .tc b)

/-- The program is: the nine operations, the region, the five stretches. -/
theorem around (𝒱₀ : Variants) : Pipeline.HMainK (Ix := Unit) (Name := ℕ) (U := UR sig nD τ) (Lvl := ℕ) cfgs 0 defs₀ 𝒱₀ m
    (main (F := F)) (entryAt m) (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact before_fresh) main_chain

/-- A buffer the nine operations do not write is found by the region as launched. -/
theorem entry_keeps (c : Dev nD) {r : Ref sig .tc} (hr : r ∉ wroteBefore) :
    entryAt m c r = m ((c : Thread nD τ).loc r) := by
  show StableHlo.after hostOps0 (fun b => m (c, b)) (Proc.devRef .tc r) = _
  exact (before_writes (F := F)).after_eq _ hr

/-- A buffer that no host operation writes and the region does not stage ends as launched. -/
theorem exit_keeps (dats : (p : Fin 1) → (c : Dev nD) → Dat τ (Elt F) Unit ℕ (UR sig nD τ) ℕ (cfgs p) c) (c : Dev nD)
    {r : Ref sig .tc} (hb : r ∉ wroteBefore) (ha : r ∉ wroteAfter) (hw : ∀ w, Pipeline.arrRef spec0 w ≠ r) :
    Pipeline.afterTail₀ cfgs dats 0 (entryVal m) tailOps c r = m ((c : Thread nD τ).loc r) := by
  unfold Pipeline.afterTail₀
  rw [(tail_writes (F := F)).after_eq _ ha, Pipeline.withArrays_of_ne _ c (entryVal m c) _ r hw]
  exact entry_keeps m c hb

end Cert.Kernel.Host

end
-- ==== Proof.KernelBody.lean ====
/-
  The kernel body at one grid point. It loads a block of 10000 gathered rows (64 wide) and the whole 64 × 32 weight,
  multiplies them into a zero accumulator, and stores the 10000 × 32 product over the whole of the product's staging
  buffer, which it reads once before the store without using what it read. So after the body the two input
  buffers hold what they held, and the product's buffer holds the one stored piece: the product of the two loads.
-/
import proofs.«108833_j80487687127273_1_alg».proof.Proof.Gen.Kernel.Skeleton
import proofs.«108833_j80487687127273_1_alg».proof.Proof.Gen.Kernel.Points
import proofs.«108833_j80487687127273_1_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The whole block of rows, the whole weight, the whole block of products: what the body loads and stores through. -/
abbrev rowsRect : Rect S10000x64 := Rect.unit (s := S10000x64) ![0, 0] S10000x64.size inb_S10000x64_S10000x64_0_0
abbrev weightRect : Rect S64x32 := Rect.unit (s := S64x32) ![0, 0] S64x32.size inb_S64x32_S64x32_0_0
abbrev prodRect : Rect S10000x32 := Rect.unit (s := S10000x32) ![0, 0] S10000x32.size inb_S10000x32_S10000x32_0_0

/-- What the body leaves in the product's staging buffer, from the block of rows `x` and the weight `w`: its one
    store, the matrix product of the two loads. -/
def prodBlock (x : Vec F S10000x64 .f32) (w : Vec F S64x32 .f32) : Vec F S10000x32 .f32 :=
  View.canon [⟨prodRect, k0_pay1 (View.ld x rowsRect) (View.ld w weightRect)⟩]

/-- The one store is of the whole buffer. -/
theorem prod_cover (p0 : Vec F S10000x32 .f32) (y : S10000x32.Idx) :
    ∃ pc ∈ ([⟨prodRect, p0⟩] : List (View.Piece (Elt F) S10000x32 .f32)), y ∈ pc.1.set :=
  View.cover_of_tiled [⟨prodRect, p0⟩] S10000x32.size (by rfl) y

set_option maxHeartbeats 1000000 in
/-- The body on whole staging memrefs: the rows' at `x`, the weight's at `w`, the product's at anything. It runs to
    the continuation with the rows' and the weight's as they were and the product's at `prodBlock x w`. -/
theorem sound_kernel (c : Dev nD) (E : Set ℕ) (i : grid0.Coords)
    (arg1 : Memref sig .tc .vmem S10000x64 .f32) (harg1 : arg1.IsWhole)
    (arg2 : Memref sig .tc .vmem S64x32 .f32) (harg2 : arg2.IsWhole)
    (arg3 : Memref sig .tc .vmem S10000x32 .f32) (harg3 : arg3.IsWhole)
    (x : Vec F S10000x64 .f32) (w : Vec F S64x32 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (prodBlock x w)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod_cover _)

end Cert.Kernel.Body

end
-- ==== Proof.KernelWhole.lean ====
/-
  The program's run and its frame. The region's proof data: each of its three arrays (the gathered rows, the weight,
  the product) is what the nine earlier host operations left; after the body at a grid point the rows' staging
  buffer holds the point's block of rows and the weight's holds the weight, as the body found them, and the
  product's holds the product of the two. The weight is fetched at the first point only and is still in its one
  buffer at every later point, because the body leaves it in place. With the body's triple at every point this gives
  the run of the whole program: the region, then the five later stretches. Every final state then has each
  argument as launched: five of them bypass the region and no host operation writes them; the weight is an array
  the region only reads.
-/
import proofs.«108833_j80487687127273_1_alg».proof.Proof.KernelHost
import proofs.«108833_j80487687127273_1_alg».proof.Proof.KernelBody
import Idealize.ShloMosaic.Lib.Pipeline.FrameBody
import Idealize.ShloMosaic.Lib.Pipeline.FrameSuffix

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Host Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-- The region's proof data on core `c`. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => prodBlock (blockAt m c 0 t) (blockAt m c 1 t)
  Φ _ := Pipeline.ΦA spec0 c
  q _ := fullShare
  owed _ := 0

theorem arrays_eq (c : Dev nD) (w : Fin cfg0.W) : (dats m 0 c).A w = entryAt m c (Pipeline.arrRef spec0 w) := by
  dsimp only [dats]

theorem after_rows (c : Dev nD) (t : Fin cfg0.N) : (dats m 0 c).after 0 t = blockAt m c 0 t := by dsimp only [dats]
theorem after_weight (c : Dev nD) (t : Fin cfg0.N) : (dats m 0 c).after 1 t = blockAt m c 1 t := by dsimp only [dats]
theorem after_prod (c : Dev nD) (t : Fin cfg0.N) :
    (dats m 0 c).after 2 t = prodBlock (blockAt m c 0 t) (blockAt m c 1 t) := by dsimp only [dats]

/-- The rows' staging buffer holds the point's block of rows when the body starts. -/
theorem before_rows (c : Dev nD) (t : Fin cfg0.N) (d) : (dats m 0 c).before 0 t d = blockAt m c 0 t :=
  ((dats m 0 c).before_in_eq_fetched 0 rfl (fun _ => rfl) (fun _ _ _ => rfl)
      (fun t => by rw [after_rows]; unfold Dat.blockOf blockAt; rw [arrays_eq]; try rfl) t d).trans
    (by unfold Dat.fetched Dat.blockOf blockAt; rw [arrays_eq]; try rfl)

/-- The weight's staging buffer holds the weight when the body starts, fetched at that point or not. -/
theorem before_weight (c : Dev nD) (t : Fin cfg0.N) (d) : (dats m 0 c).before 1 t d = blockAt m c 1 t :=
  ((dats m 0 c).before_in_eq_fetched 1 rfl (fun _ => rfl) (fun _ _ _ => rfl)
      (fun t => by rw [after_weight]; unfold Dat.blockOf blockAt; rw [arrays_eq]; try rfl) t d).trans
    (by unfold Dat.fetched Dat.blockOf blockAt; rw [arrays_eq]; try rfl)

/-! ## The body at every point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weight]
  rw [show (dats m 0 c).Φ t.succ = (dats m 0 c).Φ t.castSucc from rfl,
    show (dats m 0 c).owesAt () t.succ = (dats m 0 c).owesAt () t.castSucc from rfl,
    after_rows, after_weight, after_prod]
  iintro ⟨HΦ, Ho, ⟨%d0, H0⟩, ⟨%d1, H1⟩, ⟨%d2, H2⟩⟩
  iapply (sound_kernel c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

/-- What a buffer that bypasses the region holds at the end: the five later stretches applied to the region's exit. -/
abbrev atExit (c : Dev nD) (b : Ref sig .tc) : Buf (Elt F) ((c.tc : Thread nD τ).loc b) :=
  Pipeline.afterTail₀ cfgs (dats m) 0 (entryVal m) tailOps c b

set_option backward.isDefEq.respectTransparency.types false in
/-- From any memory with zero counters every weakly fair execution of the program terminates, and in every final state
    each array of the region holds what the proof data computes and every buffer that bypasses the region what the later
    stretches leave. -/
theorem run : θ_run defs (onTc (τ := τ) (main (F := F))) (s₀ m ρ)
    (Pipeline.FramePost cfgs (dats m) 0 (atExit m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := tailOps) (hsub := tail_sub) (hfresh := tail_fresh)
    (hkeep := tail_keeps) (hmain := around m Variants.none) (hA := arrays_eq m) (hΦ := fun _ _ => rfl)

/-! ## The arguments end unchanged -/

/-- An argument that bypasses the region ends as launched. -/
theorem arg_kept {r : Ref sig .tc} (hs : r.isScoped = false) (hw : ∀ w, (spec0 w).arr.view.ref ≠ r)
    (hw' : ∀ w, Pipeline.arrRef spec0 w ≠ r) (hb : r ∉ wroteBefore) (ha : r ∉ wroteAfter)
    {s : PUnit × MemSt nD τ sig (Elt F)} (h : Pipeline.FramePost cfgs (dats m) 0 (atExit m) s) (c : Dev nD) :
    s.2.mem ((c.tc : Thread nD τ).loc r) = m ((c.tc : Thread nD τ).loc r) :=
  ((h c).2 r (Pipeline.mem_restRefs_of r hs hw)).trans (exit_keeps m (dats m) c hb ha hw')

/-- The weight, which the region stages and only reads, ends as launched. -/
theorem weight_kept {s : PUnit × MemSt nD τ sig (Elt F)} (h : Pipeline.FramePost cfgs (dats m) 0 (atExit m) s) (c : Dev nD) :
    s.2.mem ((c.tc : Thread nD τ).loc main_arg4) = m ((c.tc : Thread nD τ).loc main_arg4) :=
  ((h c).1 1).trans (((dats m 0 c).arrAt_in 1 rfl _).trans ((arrays_eq m c 1).trans (entry_keeps m c (by decide))))

/-- The six arguments in a final state of the run. -/
theorem args_kept {s : PUnit × MemSt nD τ sig (Elt F)} (h : Pipeline.FramePost cfgs (dats m) 0 (atExit m) s) (c : Dev nD) :
    s.2.mem ((c.tc : Thread nD τ).loc main_arg0) = m ((c.tc : Thread nD τ).loc main_arg0)
    ∧ s.2.mem ((c.tc : Thread nD τ).loc main_arg1) = m ((c.tc : Thread nD τ).loc main_arg1)
    ∧ s.2.mem ((c.tc : Thread nD τ).loc main_arg2) = m ((c.tc : Thread nD τ).loc main_arg2)
    ∧ s.2.mem ((c.tc : Thread nD τ).loc main_arg3) = m ((c.tc : Thread nD τ).loc main_arg3)
    ∧ s.2.mem ((c.tc : Thread nD τ).loc main_arg4) = m ((c.tc : Thread nD τ).loc main_arg4)
    ∧ s.2.mem ((c.tc : Thread nD τ).loc main_arg5) = m ((c.tc : Thread nD τ).loc main_arg5) :=
  ⟨arg_kept m (r := main_arg0) rfl (by decide) (by decide) (by decide) (by decide) h c,
   arg_kept m (r := main_arg1) rfl (by decide) (by decide) (by decide) (by decide) h c,
   arg_kept m (r := main_arg2) rfl (by decide) (by decide) (by decide) (by decide) h c,
   arg_kept m (r := main_arg3) rfl (by decide) (by decide) (by decide) (by decide) h c,
   weight_kept m h c,
   arg_kept m (r := main_arg5) rfl (by decide) (by decide) (by decide) (by decide) h c⟩

/-- The frame: the program runs to the end, nothing faults, and its six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => args_kept m h c) (run m ρ)

end Cert.Kernel.Whole

end
-- ==== Proof.KernelIdealHost.lean ====
/-
  The host side of the program's run, around its one matrix-product region.

  Before the region nine host operations normalise the node indices (a negative index is shifted by the table's
  1000 rows) and gather the embedding rows: they write nine buffers of their own and none of the six arguments.
  After the region seventy-three host operations (five stretches: the edge lists with their self loops and the
  degrees; two selections guarding the reciprocal square root; the edge norms, the messages, their scatter-sum,
  the bias and the mean over the nodes) each write one buffer of their own: never an argument, never an array the
  region stages (the gathered rows, the weight, the product). So every argument ends as it was launched, and the
  region finds the arguments as launched.
-/
import proofs.«108833_j80487687127273_1_alg».proof.Proof.Gen.KernelIdeal.Launch
import proofs.«108833_j80487687127273_1_alg».proof.Proof.LibWriteList
import Idealize.ShloMosaic.Lib.Pipeline.FrameSuffix

noncomputable section

namespace Cert.KernelIdeal.Host

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)
open Idealize.ShloMosaic.StableHlo.WriteList
open Cert.KernelIdeal Cert.KernelIdeal.Gen

variable {F : FTy → Type} [FloatOps F]

/-! ## Which buffers each stretch writes -/

/-- The nine buffers written before the region. -/
abbrev wroteBefore : List (Ref sig .tc) := [
    main_c, main_v0, main_v1, main_c_0, main_v2, main_v3, main_v4, main_v5,
    main_v6 ]

/-- The seventy-three buffers written after the region, stretch by stretch. -/
abbrev wroteAfter : List (Ref sig .tc) := [
    main_v8, main_v9, main_v10, main_v11, main_v12, main_v13, main_v14, main_cst,
    main_v15, main_v16, main_cst_1, main_v17, main_v18, main_v19, main_cst_2, main_v20,
    main_v21, main_cst_3, main_v22, main_v23, main_cst_4, main_call0_v0, main_call0_v1, main_v24,
    main_v25, main_cst_5, main_call1_v0, main_call1_v1, main_v26, main_c_6, main_v27, main_v28,
    main_c_7, main_v29, main_v30, main_v31, main_v32, main_v33, main_v34, main_c_8,
    main_v35, main_v36, main_c_9, main_v37, main_v38, main_v39, main_v40, main_v41,
    main_v42, main_v43, main_c_10, main_v44, main_v45, main_c_11, main_v46, main_v47,
    main_v48, main_v49, main_v50, main_v51, main_v52, main_cst_12, main_v53, main_v54,
    main_v55, main_v56, main_v57, main_v58, main_cst_13, main_v59, main_cst_14, main_v60,
    main_v61 ]

theorem before_writes : WritesWithin (hostOps0 : List (HloOp τ sig (Elt F))) wroteBefore := by
  unfold WritesWithin
  simp only [hostOps0, List.Forall, StableHlo.nullary_writes, StableHlo.unary_writes, StableHlo.binary_writes,
    StableHlo.ternary_writes, StableHlo.reshape_writes]
  repeat' apply And.intro
  all_goals exact singleton_sub (by decide)

theorem after_writes1 : WritesWithin (hostOps1 : List (HloOp τ sig (Elt F))) wroteAfter := by
  unfold WritesWithin
  simp only [hostOps1, List.Forall, StableHlo.nullary_writes, StableHlo.unary_writes, StableHlo.binary_writes,
    StableHlo.ternary_writes, StableHlo.reshape_writes]
  repeat' apply And.intro
  all_goals exact singleton_sub (by decide)

theorem after_writes2 : WritesWithin (hostOps1_1 : List (HloOp τ sig (Elt F))) wroteAfter := by
  unfold WritesWithin
  simp only [hostOps1_1, List.Forall, StableHlo.nullary_writes, StableHlo.unary_writes, StableHlo.binary_writes,
    StableHlo.ternary_writes, StableHlo.reshape_writes]
  repeat' apply And.intro
  all_goals exact singleton_sub (by decide)

theorem after_writes3 : WritesWithin (hostOps1_2 : List (HloOp τ sig (Elt F))) wroteAfter := by
  unfold WritesWithin
  simp only [hostOps1_2, List.Forall, StableHlo.nullary_writes, StableHlo.unary_writes, StableHlo.binary_writes,
    StableHlo.ternary_writes, StableHlo.reshape_writes]
  repeat' apply And.intro
  all_goals exact singleton_sub (by decide)

theorem after_writes4 : WritesWithin (hostOps1_3 : List (HloOp τ sig (Elt F))) wroteAfter := by
  unfold WritesWithin
  simp only [hostOps1_3, List.Forall, StableHlo.nullary_writes, StableHlo.unary_writes, StableHlo.binary_writes,
    StableHlo.ternary_writes, StableHlo.reshape_writes]
  repeat' apply And.intro
  all_goals exact singleton_sub (by decide)

theorem after_writes5 : WritesWithin (hostOps1_4 : List (HloOp τ sig (Elt F))) wroteAfter := by
  unfold WritesWithin
  simp only [hostOps1_4, List.Forall, StableHlo.nullary_writes, StableHlo.unary_writes, StableHlo.binary_writes,
    StableHlo.ternary_writes, StableHlo.reshape_writes]
  repeat' apply And.intro
  all_goals exact singleton_sub (by decide)

/-! ## The stretches after the region, taken together -/

/-- The five stretches after the region, in order. -/
abbrev tailOps : List (List (HloOp τ sig (Elt F))) := [hostOps1, hostOps1_1, hostOps1_2, hostOps1_3, hostOps1_4]

/-- A property of every operation of each of the five stretches holds of every operation after the region. -/
theorem tail_all {P : HloOp τ sig (Elt F) → Prop}
    (h1 : (hostOps1 : List (HloOp τ sig (Elt F))).Forall P) (h2 : (hostOps1_1 : List (HloOp τ sig (Elt F))).Forall P)
    (h3 : (hostOps1_2 : List (HloOp τ sig (Elt F))).Forall P) (h4 : (hostOps1_3 : List (HloOp τ sig (Elt F))).Forall P)
    (h5 : (hostOps1_4 : List (HloOp τ sig (Elt F))).Forall P) :
    ∀ ops ∈ (tailOps : List (List (HloOp τ sig (Elt F)))), ∀ op ∈ ops, P op := by
  intro ops hops op hop
  simp only [tailOps, List.mem_cons, List.not_mem_nil, or_false] at hops
  rcases hops with rfl | rfl | rfl | rfl | rfl
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop

/-- All seventy-three operations write within the one list. -/
theorem tail_writes : WritesWithin (tailOps : List (List (HloOp τ sig (Elt F)))).flatten wroteAfter :=
  List.forall_iff_forall_mem.mpr fun op hop => by
    obtain ⟨ops, hops, h⟩ := List.mem_flatten.mp hop
    exact tail_all (P := fun op => op.writes ⊆ bufsOf (τ := τ) wroteAfter)
      after_writes1 after_writes2 after_writes3 after_writes4 after_writes5 ops hops op h

/-- An operation that touches TensorCore references only touches, after a region that prefetches nothing, only
    arrays of the region and buffers that bypass it. -/
theorem within_tail {ops : List (HloOp τ sig (Elt F))} (h : ops.Forall fun op => op.bufs ⊆ StableHlo.tcRefs τ sig) :
    ops.Forall fun op => op.bufs ⊆ Pipeline.tailRefs sig Pipeline.Prefetch.none spec0 := by
  rw [Pipeline.tailRefs_none spec0 launch0.win.arr_unscoped]
  exact List.forall_iff_forall_mem.mpr fun op hop => Pipeline.sub_ucRefs op (List.forall_iff_forall_mem.mp h op hop)

theorem tail_sub : ∀ ops ∈ (tailOps : List (List (HloOp τ sig (Elt F)))), ∀ op ∈ ops,
    op.bufs ⊆ Pipeline.tailRefs sig Pipeline.Prefetch.none spec0 :=
  tail_all (within_tail hostOps1_sub) (within_tail hostOps1_1_sub) (within_tail hostOps1_2_sub)
    (within_tail hostOps1_3_sub) (within_tail hostOps1_4_sub)

/-- No host operation allocates. -/
theorem before_fresh : (hostOps0 : List (HloOp τ sig (Elt F))).Forall fun op => op.fresh = ∅ := by
  simp only [List.Forall]; repeat' constructor
theorem after_fresh1 : (hostOps1 : List (HloOp τ sig (Elt F))).Forall fun op => op.fresh = ∅ := by
  simp only [List.Forall]; repeat' constructor
theorem after_fresh2 : (hostOps1_1 : List (HloOp τ sig (Elt F))).Forall fun op => op.fresh = ∅ := by
  simp only [List.Forall]; repeat' constructor
theorem after_fresh3 : (hostOps1_2 : List (HloOp τ sig (Elt F))).Forall fun op => op.fresh = ∅ := by
  simp only [List.Forall]; repeat' constructor
theorem after_fresh4 : (hostOps1_3 : List (HloOp τ sig (Elt F))).Forall fun op => op.fresh = ∅ := by
  simp only [List.Forall]; repeat' constructor
theorem after_fresh5 : (hostOps1_4 : List (HloOp τ sig (Elt F))).Forall fun op => op.fresh = ∅ := by
  simp only [List.Forall]; repeat' constructor

theorem tail_fresh : ∀ ops ∈ (tailOps : List (List (HloOp τ sig (Elt F)))), ∀ op ∈ ops, op.fresh = ∅ :=
  tail_all after_fresh1 after_fresh2 after_fresh3 after_fresh4 after_fresh5

/-- None of the three arrays the region stages (the gathered rows, the weight, the product) is written after it. -/
theorem arrays_not_after : ∀ w, Pipeline.arrRef spec0 w ∉ wroteAfter := by decide

theorem tail_keeps : ∀ ops ∈ (tailOps : List (List (HloOp τ sig (Elt F)))), ∀ op ∈ ops,
    ∀ w, Proc.devRef .tc (Pipeline.arrRef spec0 w) ∉ op.writes := fun ops hops op hop w =>
  (tail_writes (F := F)).not_mem_writes (arrays_not_after w) op (List.mem_flatten.mpr ⟨ops, hops, hop⟩)

/-! ## The buffers at the region's entry and at the program's end -/

variable (m : (ℓ : Loc nD τ sig) → Buf (Elt F) ℓ)

/-- Core `c`'s buffers when the region is entered: the launch contents after the nine operations before it. -/
abbrev entryVal (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entryVal m c (Proc.devRef .tc b)

/-- The program is: the nine operations, the region, the five stretches. -/
theorem around (𝒱₀ : Variants) : Pipeline.HMainK (Ix := Unit) (Name := ℕ) (U := UR sig nD τ) (Lvl := ℕ) cfgs 0 defs₀ 𝒱₀ m
    (main (F := F)) (entryAt m) (fun _ => Pipeline.chain ((tailOps : List (List (HloOp τ sig (Elt F)))).map StableHlo.seq)) :=
  Pipeline.hmain_around cfgs 0 defs₀ 𝒱₀ m main [hostOps0] tailOps (by simp only [List.Forall]; exact hostOps0_sub)
    (by simp only [List.Forall]; exact before_fresh) main_chain

/-- A buffer the nine operations do not write is found by the region as launched. -/
theorem entry_keeps (c : Dev nD) {r : Ref sig .tc} (hr : r ∉ wroteBefore) :
    entryAt m c r = m ((c : Thread nD τ).loc r) := by
  show StableHlo.after hostOps0 (fun b => m (c, b)) (Proc.devRef .tc r) = _
  exact (before_writes (F := F)).after_eq _ hr

/-- A buffer that no host operation writes and the region does not stage ends as launched. -/
theorem exit_keeps (dats : (p : Fin 1) → (c : Dev nD) → Dat τ (Elt F) Unit ℕ (UR sig nD τ) ℕ (cfgs p) c) (c : Dev nD)
    {r : Ref sig .tc} (hb : r ∉ wroteBefore) (ha : r ∉ wroteAfter) (hw : ∀ w, Pipeline.arrRef spec0 w ≠ r) :
    Pipeline.afterTail₀ cfgs dats 0 (entryVal m) tailOps c r = m ((c : Thread nD τ).loc r) := by
  unfold Pipeline.afterTail₀
  rw [(tail_writes (F := F)).after_eq _ ha, Pipeline.withArrays_of_ne _ c (entryVal m c) _ r hw]
  exact entry_keeps m c hb

end Cert.KernelIdeal.Host

end
-- ==== Proof.KernelIdealBody.lean ====
/-
  The kernel body at one grid point. It loads a block of 10000 gathered rows (64 wide) and the whole 64 × 32 weight,
  multiplies them into a zero accumulator, and stores the 10000 × 32 product over the whole of the product's staging
  buffer, which it reads once before the store without using what it read. So after the body the two input
  buffers hold what they held, and the product's buffer holds the one stored piece: the product of the two loads.
-/
import proofs.«108833_j80487687127273_1_alg».proof.Proof.Gen.KernelIdeal.Skeleton
import proofs.«108833_j80487687127273_1_alg».proof.Proof.Gen.KernelIdeal.Points
import proofs.«108833_j80487687127273_1_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The whole block of rows, the whole weight, the whole block of products: what the body loads and stores through. -/
abbrev rowsRect : Rect S10000x64 := Rect.unit (s := S10000x64) ![0, 0] S10000x64.size inb_S10000x64_S10000x64_0_0
abbrev weightRect : Rect S64x32 := Rect.unit (s := S64x32) ![0, 0] S64x32.size inb_S64x32_S64x32_0_0
abbrev prodRect : Rect S10000x32 := Rect.unit (s := S10000x32) ![0, 0] S10000x32.size inb_S10000x32_S10000x32_0_0

/-- What the body leaves in the product's staging buffer, from the block of rows `x` and the weight `w`: its one
    store, the matrix product of the two loads. -/
def prodBlock (x : Vec F S10000x64 .f32) (w : Vec F S64x32 .f32) : Vec F S10000x32 .f32 :=
  View.canon [⟨prodRect, k0_pay1 (View.ld x rowsRect) (View.ld w weightRect)⟩]

/-- The one store is of the whole buffer. -/
theorem prod_cover (p0 : Vec F S10000x32 .f32) (y : S10000x32.Idx) :
    ∃ pc ∈ ([⟨prodRect, p0⟩] : List (View.Piece (Elt F) S10000x32 .f32)), y ∈ pc.1.set :=
  View.cover_of_tiled [⟨prodRect, p0⟩] S10000x32.size (by rfl) y

set_option maxHeartbeats 1000000 in
/-- The body on whole staging memrefs: the rows' at `x`, the weight's at `w`, the product's at anything. It runs to
    the continuation with the rows' and the weight's as they were and the product's at `prodBlock x w`. -/
theorem sound_kernel (c : Dev nD) (E : Set ℕ) (i : grid0.Coords)
    (arg1 : Memref sig .tc .vmem S10000x64 .f32) (harg1 : arg1.IsWhole)
    (arg2 : Memref sig .tc .vmem S64x32 .f32) (harg2 : arg2.IsWhole)
    (arg3 : Memref sig .tc .vmem S10000x32 .f32) (harg3 : arg3.IsWhole)
    (x : Vec F S10000x64 .f32) (w : Vec F S64x32 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (prodBlock x w)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod_cover _)

end Cert.KernelIdeal.Body

end
-- ==== Proof.KernelIdealWhole.lean ====
/-
  The program's run and its frame. The region's proof data: each of its three arrays (the gathered rows, the weight,
  the product) is what the nine earlier host operations left; after the body at a grid point the rows' staging
  buffer holds the point's block of rows and the weight's holds the weight, as the body found them, and the
  product's holds the product of the two. The weight is fetched at the first point only and is still in its one
  buffer at every later point, because the body leaves it in place. With the body's triple at every point this gives
  the run of the whole program: the region, then the five later stretches. Every final state then has each
  argument as launched: five of them bypass the region and no host operation writes them; the weight is an array
  the region only reads.
-/
import proofs.«108833_j80487687127273_1_alg».proof.Proof.KernelIdealHost
import proofs.«108833_j80487687127273_1_alg».proof.Proof.KernelIdealBody
import Idealize.ShloMosaic.Lib.Pipeline.FrameBody
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Host Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-- The region's proof data on core `c`. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => prodBlock (blockAt m c 0 t) (blockAt m c 1 t)
  Φ _ := Pipeline.ΦA spec0 c
  q _ := fullShare
  owed _ := 0

theorem arrays_eq (c : Dev nD) (w : Fin cfg0.W) : (dats m 0 c).A w = entryAt m c (Pipeline.arrRef spec0 w) := by
  dsimp only [dats]

theorem after_rows (c : Dev nD) (t : Fin cfg0.N) : (dats m 0 c).after 0 t = blockAt m c 0 t := by dsimp only [dats]
theorem after_weight (c : Dev nD) (t : Fin cfg0.N) : (dats m 0 c).after 1 t = blockAt m c 1 t := by dsimp only [dats]
theorem after_prod (c : Dev nD) (t : Fin cfg0.N) :
    (dats m 0 c).after 2 t = prodBlock (blockAt m c 0 t) (blockAt m c 1 t) := by dsimp only [dats]

/-- The rows' staging buffer holds the point's block of rows when the body starts. -/
theorem before_rows (c : Dev nD) (t : Fin cfg0.N) (d) : (dats m 0 c).before 0 t d = blockAt m c 0 t :=
  ((dats m 0 c).before_in_eq_fetched 0 rfl (fun _ => rfl) (fun _ _ _ => rfl)
      (fun t => by rw [after_rows]; unfold Dat.blockOf blockAt; rw [arrays_eq]; try rfl) t d).trans
    (by unfold Dat.fetched Dat.blockOf blockAt; rw [arrays_eq]; try rfl)

/-- The weight's staging buffer holds the weight when the body starts, fetched at that point or not. -/
theorem before_weight (c : Dev nD) (t : Fin cfg0.N) (d) : (dats m 0 c).before 1 t d = blockAt m c 1 t :=
  ((dats m 0 c).before_in_eq_fetched 1 rfl (fun _ => rfl) (fun _ _ _ => rfl)
      (fun t => by rw [after_weight]; unfold Dat.blockOf blockAt; rw [arrays_eq]; try rfl) t d).trans
    (by unfold Dat.fetched Dat.blockOf blockAt; rw [arrays_eq]; try rfl)

/-! ## The body at every point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_weight]
  rw [show (dats m 0 c).Φ t.succ = (dats m 0 c).Φ t.castSucc from rfl,
    show (dats m 0 c).owesAt () t.succ = (dats m 0 c).owesAt () t.castSucc from rfl,
    after_rows, after_weight, after_prod]
  iintro ⟨HΦ, Ho, ⟨%d0, H0⟩, ⟨%d1, H1⟩, ⟨%d2, H2⟩⟩
  iapply (sound_kernel c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

/-- What a buffer that bypasses the region holds at the end: the five later stretches applied to the region's exit. -/
abbrev atExit (c : Dev nD) (b : Ref sig .tc) : Buf (Elt F) ((c.tc : Thread nD τ).loc b) :=
  Pipeline.afterTail₀ cfgs (dats m) 0 (entryVal m) tailOps c b

set_option backward.isDefEq.respectTransparency.types false in
/-- From any memory with zero counters every weakly fair execution of the program terminates, and in every final state
    each array of the region holds what the proof data computes and every buffer that bypasses the region what the later
    stretches leave. -/
theorem run : θ_run defs (onTc (τ := τ) (main (F := F))) (s₀ m ρ)
    (Pipeline.FramePost cfgs (dats m) 0 (atExit m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := tailOps) (hsub := tail_sub) (hfresh := tail_fresh)
    (hkeep := tail_keeps) (hmain := around m Variants.none) (hA := arrays_eq m) (hΦ := fun _ _ => rfl)

/-! ## The arguments end unchanged -/

/-- An argument that bypasses the region ends as launched. -/
theorem arg_kept {r : Ref sig .tc} (hs : r.isScoped = false) (hw : ∀ w, (spec0 w).arr.view.ref ≠ r)
    (hw' : ∀ w, Pipeline.arrRef spec0 w ≠ r) (hb : r ∉ wroteBefore) (ha : r ∉ wroteAfter)
    {s : PUnit × MemSt nD τ sig (Elt F)} (h : Pipeline.FramePost cfgs (dats m) 0 (atExit m) s) (c : Dev nD) :
    s.2.mem ((c.tc : Thread nD τ).loc r) = m ((c.tc : Thread nD τ).loc r) :=
  ((h c).2 r (Pipeline.mem_restRefs_of r hs hw)).trans (exit_keeps m (dats m) c hb ha hw')

/-- The weight, which the region stages and only reads, ends as launched. -/
theorem weight_kept {s : PUnit × MemSt nD τ sig (Elt F)} (h : Pipeline.FramePost cfgs (dats m) 0 (atExit m) s) (c : Dev nD) :
    s.2.mem ((c.tc : Thread nD τ).loc main_arg4) = m ((c.tc : Thread nD τ).loc main_arg4) :=
  ((h c).1 1).trans (((dats m 0 c).arrAt_in 1 rfl _).trans ((arrays_eq m c 1).trans (entry_keeps m c (by decide))))

/-- The six arguments in a final state of the run. -/
theorem args_kept {s : PUnit × MemSt nD τ sig (Elt F)} (h : Pipeline.FramePost cfgs (dats m) 0 (atExit m) s) (c : Dev nD) :
    s.2.mem ((c.tc : Thread nD τ).loc main_arg0) = m ((c.tc : Thread nD τ).loc main_arg0)
    ∧ s.2.mem ((c.tc : Thread nD τ).loc main_arg1) = m ((c.tc : Thread nD τ).loc main_arg1)
    ∧ s.2.mem ((c.tc : Thread nD τ).loc main_arg2) = m ((c.tc : Thread nD τ).loc main_arg2)
    ∧ s.2.mem ((c.tc : Thread nD τ).loc main_arg3) = m ((c.tc : Thread nD τ).loc main_arg3)
    ∧ s.2.mem ((c.tc : Thread nD τ).loc main_arg4) = m ((c.tc : Thread nD τ).loc main_arg4)
    ∧ s.2.mem ((c.tc : Thread nD τ).loc main_arg5) = m ((c.tc : Thread nD τ).loc main_arg5) :=
  ⟨arg_kept m (r := main_arg0) rfl (by decide) (by decide) (by decide) (by decide) h c,
   arg_kept m (r := main_arg1) rfl (by decide) (by decide) (by decide) (by decide) h c,
   arg_kept m (r := main_arg2) rfl (by decide) (by decide) (by decide) (by decide) h c,
   arg_kept m (r := main_arg3) rfl (by decide) (by decide) (by decide) (by decide) h c,
   weight_kept m h c,
   arg_kept m (r := main_arg5) rfl (by decide) (by decide) (by decide) (by decide) h c⟩

/-- The frame: the program runs to the end, nothing faults, and its six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => args_kept m h c) (run m ρ)

end Cert.KernelIdeal.Whole

end
-- ==== Proof.MeanStages.lean ====
/-
  What the program computes from the product of the gathered rows with the weight: a mean of symmetric-normalised,
  edge-weighted sums over a graph with self loops.

  With `xw` the 100000 × 32 product, `e` the 2 × 1600000 edge list, `ew` the edge weights and `b` the bias:
  the sources and the targets are the two rows of `e`, each followed by 0 … 99999 (one self loop per node); the
  weights are `ew` followed by 100000 ones; the degree of a node is the sum of the weights of the edges that
  point at it; its inverse square root is taken where the degree is positive, and is 0 elsewhere; an edge's norm
  is the product of its source's inverse square root, its weight and its target's; its message is its norm times
  its source's row of `xw`; a node's aggregate is the sum of the messages of the edges that point at it; and the
  result is the mean over the 100000 nodes of aggregate plus bias. An index is wrapped (100000 added where it is
  negative) before a row is read with it.
-/
import proofs.«108833_j80487687127273_1_alg».proof.Proof.Gen.KernelIdeal

noncomputable section

namespace Cert.KernelIdeal.Stages

open Idealize.ShloMosaic
open Cert.KernelIdeal Cert.KernelIdeal.Facts₀

variable {F : FTy → Type} [FloatOps F]

/-- The edges' sources: the edge list's first row, then a self loop per node. -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' targets: the edge list's second row, then a self loop per node. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The edges' weights: the given ones, then 1 for each self loop. -/
def weights (ew : (⟨S1600000, .f32⟩ : BufTy).Contents (Elt F)) : (⟨S1700000, .f32⟩ : BufTy).Contents (Elt F) :=
  concatenate S1700000 0 [⟨S1600000, ew⟩, ⟨S100000, (broadcastInDim S100000 ![] bcast_S_S100000 (constant (F := F) S_ .f32 0x3F800000#32))⟩] concatenates_S1600000_S100000_S1700000_d0

/-- A node's degree: the sum of the weights of the edges that point at it. -/
def degree (e : (⟨S2x1600000, .i32⟩ : BufTy).Contents (Elt F)) (ew : (⟨S1600000, .f32⟩ : BufTy).Contents (Elt F)) :
    (⟨S100000, .f32⟩ : BufTy).Contents (Elt F) :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 (targets e)) (weights ew)

/-- Where the degree is positive. -/
def positive (e : (⟨S2x1600000, .i32⟩ : BufTy).Contents (Elt F)) (ew : (⟨S1600000, .f32⟩ : BufTy).Contents (Elt F)) :
    (⟨S100000, .i1⟩ : BufTy).Contents (Elt F) :=
  cmpf .ogt (degree e ew) (broadcastInDim S100000 ![] bcast_S_S100000 (constant (F := F) S_ .f32 0x00000000#32))

/-- The degree's inverse square root where the degree is positive (taken of 1 elsewhere and discarded), 0 elsewhere. -/
def invSqrt (e : (⟨S2x1600000, .i32⟩ : BufTy).Contents (Elt F)) (ew : (⟨S1600000, .f32⟩ : BufTy).Contents (Elt F)) :
    (⟨S100000, .f32⟩ : BufTy).Contents (Elt F) :=
  select (positive e ew) (Host.rsqrt (select (positive e ew) (degree e ew) (broadcastInDim S100000 ![] bcast_S_S100000 (id (constant (F := F) S_ .f32 0x3F800000#32))))) (broadcastInDim S100000 ![] bcast_S_S100000 (id (constant (F := F) S_ .f32 0x00000000#32)))

/-- A node index made non-negative: 100000 added where it is negative. -/
def wrap (ix : (⟨S1700000, .i32⟩ : BufTy).Contents (Elt F)) : (⟨S1700000, .i32⟩ : BufTy).Contents (Elt F) :=
  select (cmpi .slt ix (broadcastInDim S1700000 ![] bcast_S_S1700000 (constantI S_ 32 0#32))) (addi ix (broadcastInDim S1700000 ![] bcast_S_S1700000 (constantI S_ 32 100000#32))) ix

/-- An edge's norm: its source's inverse square root, times its weight, times its target's. -/
def norm (e : (⟨S2x1600000, .i32⟩ : BufTy).Contents (Elt F)) (ew : (⟨S1600000, .f32⟩ : BufTy).Contents (Elt F)) :
    (⟨S1700000, .f32⟩ : BufTy).Contents (Elt F) :=
  mulf (mulf (Host.gather gather_S100000_S1700000x1_S1700000_n_0_n_n_0_1_1 (invSqrt e ew) (broadcastInDim S1700000x1 ![0] bcast_S1700000_S1700000x1_0 (wrap (sources e)))) (weights ew)) (Host.gather gather_S100000_S1700000x1_S1700000_n_0_n_n_0_1_1 (invSqrt e ew) (broadcastInDim S1700000x1 ![0] bcast_S1700000_S1700000x1_0 (wrap (targets e))))

/-- An edge's message: its norm times its source's row of the product. -/
def messages (xw : (⟨S100000x32, .f32⟩ : BufTy).Contents (Elt F)) (e : (⟨S2x1600000, .i32⟩ : BufTy).Contents (Elt F))
    (ew : (⟨S1600000, .f32⟩ : BufTy).Contents (Elt F)) : (⟨S1700000x32, .f32⟩ : BufTy).Contents (Elt F) :=
  mulf (broadcastInDim S1700000x32 ![0, 1] bcast_S1700000x1_S1700000x32_0_1 (broadcastInDim S1700000x1 ![0] bcast_S1700000_S1700000x1_0 (norm e ew))) (Host.gather gather_S100000x32_S1700000x1_S1700000x32_1_0_n_n_0_1_132 xw (broadcastInDim S1700000x1 ![0] bcast_S1700000_S1700000x1_0 (wrap (sources e))))

/-- A node's aggregate: the sum of the messages of the edges that point at it. -/
def aggregate (xw : (⟨S100000x32, .f32⟩ : BufTy).Contents (Elt F)) (e : (⟨S2x1600000, .i32⟩ : BufTy).Contents (Elt F))
    (ew : (⟨S1600000, .f32⟩ : BufTy).Contents (Elt F)) : (⟨S100000x32, .f32⟩ : BufTy).Contents (Elt F) :=
  Host.scatterAdd scatter_S100000x32_S1700000x1_S1700000x32_1_0_0_1 (broadcastInDim S100000x32 ![] bcast_S_S100000x32 (constant (F := F) S_ .f32 0x00000000#32)) (broadcastInDim S1700000x1 ![0] bcast_S1700000_S1700000x1_0 (targets e)) (messages xw e ew)

/-- The result: the mean over the nodes of aggregate plus bias. -/
def meanOut (xw : (⟨S100000x32, .f32⟩ : BufTy).Contents (Elt F)) (e : (⟨S2x1600000, .i32⟩ : BufTy).Contents (Elt F))
    (ew : (⟨S1600000, .f32⟩ : BufTy).Contents (Elt F)) (b : (⟨S32, .f32⟩ : BufTy).Contents (Elt F)) :
    (⟨S32, .f32⟩ : BufTy).Contents (Elt F) :=
  Host.divf (Host.reduceAdd (addf (aggregate xw e ew) (broadcastInDim S100000x32 ![0, 1] bcast_S1x32_S100000x32_0_1 (broadcastInDim S1x32 ![1] bcast_S32_S1x32_1 b))) (constant (F := F) S_ .f32 0x00000000#32) reducesTo_S100000x32_S32_d0 h_S_) (broadcastInDim S32 ![] bcast_S_S32 (constant (F := F) S_ .f32 0x47C35000#32))

end Cert.KernelIdeal.Stages

end
-- ==== Proof.KernelIdealTail.lean ====
/-
  The kernel program's result. The seventy-three host operations after the region read, of what the region and the
  earlier operations left, only the product, the edge list, the edge weights and the bias; composed, they are the
  mean of normalised edge-weighted sums (`Stages.meanOut`). So the program ends with its result buffer at that mean
  of: the product array as the region leaves it, and three arguments as launched.
-/
import proofs.«108833_j80487687127273_1_alg».proof.Proof.KernelIdealWhole
import proofs.«108833_j80487687127273_1_alg».proof.Proof.MeanStages

noncomputable section

namespace Cert.KernelIdeal.Tail

open Idealize.ShloMosaic Idealize.ShloMosaic.TcCoe Idealize.ShloMosaic.StableHlo
open Idealize.SL Idealize.SL.Sem
open Idealize.ShloMosaic.Rounds
open Cert.KernelIdeal Cert.KernelIdeal.Gen Cert.KernelIdeal.Host Cert.KernelIdeal.Whole Cert.KernelIdeal.Stages

variable {F : FTy → Type} [FloatOps F]

set_option maxRecDepth 8192 in
set_option maxHeartbeats 8000000 in
/-- From any contents `X` of the buffers, the operations after the region leave in the result buffer the mean stage
    of `X` at the product, the edge list, the edge weights and the bias. -/
theorem tail_value (X : Valuation τ sig (Elt F)) :
    StableHlo.after (tailOps : List (List (HloOp τ sig (Elt F)))).flatten X (Proc.devRef .tc main_v61)
      = meanOut (X (Proc.devRef .tc main_v7)) (X (Proc.devRef .tc main_arg1)) (X (Proc.devRef .tc main_arg2))
          (X (Proc.devRef .tc main_arg5)) := by
  simp only [tailOps, hostOps1, hostOps1_1, hostOps1_2, hostOps1_3, hostOps1_4, List.flatten_cons, List.flatten_nil,
    List.append_nil, List.cons_append, List.nil_append]
  after_results_simp
  rfl

variable (m : (ℓ : Loc nD τ sig) → Buf (Elt F) ℓ)

/-- The result buffer at the program's end. -/
theorem exit_value (c : Dev nD) :
    atExit m c main_v61
      = meanOut ((dats m 0 c).arrAt 2 cfg0.N) (m ((c.tc : Thread nD τ).loc main_arg1))
          (m ((c.tc : Thread nD τ).loc main_arg2)) (m ((c.tc : Thread nD τ).loc main_arg5)) := by
  show StableHlo.after (tailOps : List (List (HloOp τ sig (Elt F)))).flatten
      (Pipeline.withArrays spec0 c (entryVal m c) fun w => (dats m 0 c).arrAt w cfg0.N) (Proc.devRef .tc main_v61) = _
  rw [tail_value]
  have h7 : Pipeline.withArrays spec0 c (entryVal m c) (fun w => (dats m 0 c).arrAt w cfg0.N) (Proc.devRef .tc main_v7)
      = (dats m 0 c).arrAt 2 cfg0.N := Pipeline.withArrays_arr spec0 launch0.win.arr_inj c _ _ 2
  have h1 : Pipeline.withArrays spec0 c (entryVal m c) (fun w => (dats m 0 c).arrAt w cfg0.N) (Proc.devRef .tc main_arg1)
      = m ((c.tc : Thread nD τ).loc main_arg1) :=
    (Pipeline.withArrays_of_ne spec0 c (entryVal m c) _ main_arg1 (by decide)).trans (entry_keeps m c (by decide))
  have h2 : Pipeline.withArrays spec0 c (entryVal m c) (fun w => (dats m 0 c).arrAt w cfg0.N) (Proc.devRef .tc main_arg2)
      = m ((c.tc : Thread nD τ).loc main_arg2) :=
    (Pipeline.withArrays_of_ne spec0 c (entryVal m c) _ main_arg2 (by decide)).trans (entry_keeps m c (by decide))
  have h5 : Pipeline.withArrays spec0 c (entryVal m c) (fun w => (dats m 0 c).arrAt w cfg0.N) (Proc.devRef .tc main_arg5)
      = m ((c.tc : Thread nD τ).loc main_arg5) :=
    (Pipeline.withArrays_of_ne spec0 c (entryVal m c) _ main_arg5 (by decide)).trans (entry_keeps m c (by decide))
  rw [h7, h1, h2, h5]

end Cert.KernelIdeal.Tail

end
-- ==== Proof.ProductAt.lean ====
/-
  The kernel body's arithmetic read at an index, at the ideal values: the 10000 × 32 block it stores holds at (p, q)
  the sum over the 64 columns k of the block of rows at (p, k) times the weight at (k, q). The two narrowing
  conversions before the product are the identity on ideal values, the reshape of the rows is to their own shape,
  and the accumulator is zero.
-/
import proofs.«108833_j80487687127273_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ProductAt

open Idealize.ShloMosaic
open Cert.KernelIdeal Cert.KernelIdeal.Gen

/-- The operands' indices of the block product at output index `j` and contraction index `q`, axis by axis: the
    left operand's are (row of `j`, `q`), the right operand's (`q`, column of `j`). -/
theorem left_axis0 (j : S10000x32.Idx) (q : dot_S10000x64_S64x32_S10000x32_1_0_0_1_n_n.contr.Idx) :
    (dot_S10000x64_S64x32_S10000x32_1_0_0_1_n_n.lhsIdx j q 0).val = (j 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem left_axis1 (j : S10000x32.Idx) (q : dot_S10000x64_S64x32_S10000x32_1_0_0_1_n_n.contr.Idx) :
    (dot_S10000x64_S64x32_S10000x32_1_0_0_1_n_n.lhsIdx j q 1).val = (q ⟨0, by decide⟩).val :=
  dot_S10000x64_S64x32_S10000x32_1_0_0_1_n_n.lhsIdx_val_of_single rfl j q
theorem right_axis0 (j : S10000x32.Idx) (q : dot_S10000x64_S64x32_S10000x32_1_0_0_1_n_n.contr.Idx) :
    (dot_S10000x64_S64x32_S10000x32_1_0_0_1_n_n.rhsIdx j q 0).val = (q ⟨0, by decide⟩).val :=
  dot_S10000x64_S64x32_S10000x32_1_0_0_1_n_n.rhsIdx_val_of_single rfl j q
theorem right_axis1 (j : S10000x32.Idx) (q : dot_S10000x64_S64x32_S10000x32_1_0_0_1_n_n.contr.Idx) :
    (dot_S10000x64_S64x32_S10000x32_1_0_0_1_n_n.rhsIdx j q 1).val = (j 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Row `j 0`, column `k` of the block of rows. -/
abbrev rowAt (j : S10000x32.Idx) (k : Fin 64) : S10000x64.Idx := fun a => match a with
  | ⟨0, _⟩ => ⟨(j 0).val, (j 0).isLt⟩
  | ⟨1, _⟩ => ⟨k.val, k.isLt⟩
/-- Row `k`, column `j 1` of the weight. -/
abbrev colAt (j : S10000x32.Idx) (k : Fin 64) : S64x32.Idx := fun a => match a with
  | ⟨0, _⟩ => ⟨k.val, k.isLt⟩
  | ⟨1, _⟩ => ⟨(j 1).val, (j 1).isLt⟩

/-- The stored block at `j`: the sum over `k` of rows (j 0, k) times weight (k, j 1). -/
theorem block_product_apply (x : Vec Ideal S10000x64 .f32) (w : Vec Ideal S64x32 .f32) (j : S10000x32.Idx) :
    k0_pay1 (F := Ideal) x w j = ∑ k : Fin 64, x (rowAt j k) * w (colAt j k) := by
  unfold k0_pay1
  rw [shapeCast_self]
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx j ((ValueIdx.contrEquiv1 dot_S10000x64_S64x32_S10000x32_1_0_0_1_n_n 64 rfl rfl).symm k) = rowAt j k := funext fun a => Fin.ext (by
    match a with
    | ⟨0, _⟩ => exact left_axis0 _ _
    | ⟨1, _⟩ => exact (left_axis1 _ _).trans hk)
  have er : dot_S10000x64_S64x32_S10000x32_1_0_0_1_n_n.rhsIdx j ((ValueIdx.contrEquiv1 dot_S10000x64_S64x32_S10000x32_1_0_0_1_n_n 64 rfl rfl).symm k) = colAt j k := funext fun a => Fin.ext (by
    match a with
    | ⟨0, _⟩ => exact (right_axis0 _ _).trans hk
    | ⟨1, _⟩ => exact right_axis1 _ _)
  rw [el, er]
  rfl

end Cert.KernelIdeal.ProductAt

end
-- ==== Proof.KernelIdealProduct.lean ====
/-
  The product array after the region, at the ideal values: the ten grid points write back ten blocks of 10000 rows,
  block t holding rows 10000·t … 10000·t + 9999 of the gathered rows times the weight, and together the blocks are
  every row. So the array is the whole 100000 × 32 product: at (i, q) the sum over the 64 columns k of the
  gathered rows at (i, k) times the weight at (k, q), which is what the reference's one matrix product holds.
  The gathered rows the region finds are the reference's gathered rows: the same nine operations of the same two
  arguments.
-/
import proofs.«108833_j80487687127273_1_alg».proof.Proof.KernelIdealWhole
import proofs.«108833_j80487687127273_1_alg».proof.Proof.ProductAt
import proofs.«108833_j80487687127273_1_alg».proof.Proof.Gen.ReferenceIdeal.Read
import Idealize.ShloMosaic.Lib.Pipeline.Value

set_option maxRecDepth 16384

noncomputable section

namespace Cert.KernelIdeal.Product

open Idealize.ShloMosaic Idealize.ShloMosaic.TcCoe Idealize.ShloMosaic.StableHlo
open Idealize.SL Idealize.SL.Sem
open Idealize.ShloMosaic.Rounds
open Idealize.ShloMosaic.Pipeline (Dat)
open Cert.KernelIdeal Cert.KernelIdeal.Gen Cert.KernelIdeal.Host Cert.KernelIdeal.Body Cert.KernelIdeal.Whole
open Cert.KernelIdeal.ProductAt

variable (m : (ℓ : Loc nD τ sig) → Buf (Elt Ideal) ℓ)

/-- The reference's matrix product of the arguments: gathered rows times weight. -/
abbrev product (c : Dev nD) : (⟨S100000x32, .f32⟩ : BufTy).Contents (Elt Ideal) :=
  Cert.ReferenceIdeal.Read.val_main_v7 (F := Ideal) (m ((c.tc : Thread nD τ).loc main_arg0)) (m ((c.tc : Thread nD τ).loc main_arg3))
    (m ((c.tc : Thread nD τ).loc main_arg4))

/-- The rows the region finds are the reference's gathered rows. -/
theorem entry_rows (c : Dev nD) :
    entryAt m c main_v6 = Cert.ReferenceIdeal.Read.val_main_v6 (F := Ideal) (m ((c.tc : Thread nD τ).loc main_arg0)) (m ((c.tc : Thread nD τ).loc main_arg3)) := by
  show StableHlo.after hostOps0 (fun b => m (c, b)) (Proc.devRef .tc main_v6) = _
  after_results
  rfl

/-- The weight the region finds is the argument. -/
theorem entry_weight (c : Dev nD) : entryAt m c main_arg4 = m ((c.tc : Thread nD τ).loc main_arg4) :=
  entry_keeps m c (by decide)

/-- The gathered rows and the weight as the region finds them, at their literal types. -/
abbrev rowsArr (c : Dev nD) : (⟨S100000x64, .f32⟩ : BufTy).Contents (Elt Ideal) := entryAt m c main_v6
abbrev weightArr (c : Dev nD) : (⟨S64x32, .f32⟩ : BufTy).Contents (Elt Ideal) := entryAt m c main_arg4

theorem rowsArr_eq (c : Dev nD) :
    rowsArr m c = Cert.ReferenceIdeal.Read.val_main_v6 (F := Ideal) (m ((c.tc : Thread nD τ).loc main_arg0)) (m ((c.tc : Thread nD τ).loc main_arg3)) :=
  entry_rows m c
theorem weightArr_eq (c : Dev nD) : weightArr m c = m ((c.tc : Thread nD τ).loc main_arg4) := entry_weight m c

/-- The index maps over the ten points: the rows' block and the product's block move together down the rows, and
    nothing else moves. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Each of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

theorem origin : (![0, 0] : Fin 2 → Nat) = fun _ => 0 := funext fun a => by fin_cases a <;> rfl

/-- What point `t` writes back is block `t` of the whole product. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after_prod]
  unfold prodBlock
  rw [View.canon_unit_zero origin]
  simp only [View.ld_unit_zero (S := S10000x64) origin, View.ld_unit_zero (S := S64x32) origin]
  obtain ⟨e0, e1, e2, e3, e4⟩ := idx_facts t
  funext j
  refine (block_product_apply (blockAt m c 0 t) (blockAt m c 1 t) j).trans ?_
  show _ = Cert.ReferenceIdeal.Read.val_main_v7 (F := Ideal) _ _ _ (((cfg0.win 2).blk t).view.emb j)
  rw [Cert.ReferenceIdeal.Read.val_main_v7_apply]
  refine Finset.sum_congr rfl fun k _ => ?_
  show rowsArr m c (((cfg0.win 0).blk t).view.emb (rowAt j k))
      * weightArr m c (((cfg0.win 1).blk t).view.emb (colAt j k)) = _
  rw [rowsArr_eq, weightArr_eq]
  have h0 : ((cfg0.win 0).blk t).view.emb (rowAt j k) = Cert.ReferenceIdeal.Read.lidx_main_v7 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (colAt j k) = Cert.ReferenceIdeal.Read.ridx_main_v7 (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 32 + 1 * (j 1).val = win0_2.index t (1 : Fin 2) * 32 + 1 * (j 1).val; omega
  rw [h0, h1]

/-- An index of the product array is in point `t`'s block iff each coordinate is in the block's range. -/
theorem mem_blk (t : Fin cfg0.N) (i : S100000x32.Idx) :
    i ∈ ((cfg0.win 2).blk t).view.set ↔ ∀ a : Fin 2, win0_2.index t a * S10000x32.size a ≤ (i a).val
      ∧ (i a).val < win0_2.index t a * S10000x32.size a + S10000x32.size a := by
  show i ∈ ((View.whole main_v7).slice (win0_2.rect t)).set ↔ _
  rw [View.set_slice_whole, Rect.mem_set_unit]
  exact Iff.rfl

/-- Every index of the product array is in the block of the point its row falls to. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- The product array after the region is the reference's matrix product. -/
theorem final_product (c : Dev nD) : (dats m 0 c).arrAt 2 cfg0.N = product m c :=
  (dats m 0 c).arrAt_eq_of_cover 2 (product m c) (fun t _ => flushed_eq m c t) covered

end Cert.KernelIdeal.Product

end
-- ==== Proof.RefMean.lean ====
/-
  The reference's result. After its one matrix product of the gathered rows with the weight, the reference applies
  the same operations as the kernel program applies after its region: its result is the mean stage of that product,
  the edge list, the edge weights and the bias.
-/
import proofs.«108833_j80487687127273_1_alg».proof.Proof.MeanStages
import proofs.«108833_j80487687127273_1_alg».proof.Proof.Gen.ReferenceIdeal.Read

noncomputable section

namespace Cert.ReferenceIdeal.RefValue

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ)

set_option maxRecDepth 8192 in
set_option maxHeartbeats 8000000 in
/-- The reference's result is the mean stage of its matrix product and three of its arguments. -/
theorem result_eq (c : Dev nD) :
    Cert.ReferenceIdeal.Value.res_main_v61 m c
      = Cert.KernelIdeal.Stages.meanOut
          (Cert.ReferenceIdeal.Read.val_main_v7 (F := F) (m ((c.tc : Thread nD τ).loc main_arg0))
            (m ((c.tc : Thread nD τ).loc main_arg3)) (m ((c.tc : Thread nD τ).loc main_arg4)))
          (m ((c.tc : Thread nD τ).loc main_arg1)) (m ((c.tc : Thread nD τ).loc main_arg2))
          (m ((c.tc : Thread nD τ).loc main_arg5)) := by
  unfold Cert.ReferenceIdeal.Value.res_main_v61
  rfl

end Cert.ReferenceIdeal.RefValue

end
-- ==== Proof.lean ====
/-
  A graph-convolution layer followed by a mean over the nodes, computed two ways.

  Both programs gather a 64-wide embedding row per node (a negative index shifted by the table's 1000 rows), multiply
  the 100000 × 64 gathered rows by a 64 × 32 weight, and then, over the edges with a self loop added per node, take
  degrees, their inverse square roots where positive, edge norms, norm-scaled messages summed per target node, add a
  bias and average over the 100000 nodes. The reference multiplies in one host matrix product. The kernel program
  multiplies in a region of ten grid points, each loading a block of 10000 rows and the whole weight, narrowing both
  to bf16 and multiplying into a zero accumulator; at the ideal values the narrowing is the identity, so each block
  is the exact product of its rows with the weight, the ten blocks are the whole product, and everything after the
  product is the same function of the same arguments in both programs. No finiteness of the inputs is needed:
  entry by entry both products are the same finite sum of the same terms.

  The frames: every host operation writes one buffer of its own and never an argument; the region writes only the
  product array; so each program runs to the end with its arguments unchanged (the reference's from its run read
  back, the two kernel programs' from the region's run continued by the host operations after it). The ideal pass
  rewrote nothing, so there is nothing to preserve beyond reading the same text at the ideal values.
-/
import proofs.«108833_j80487687127273_1_alg».proof.Defs
import proofs.«108833_j80487687127273_1_alg».proof.Proof.Gen.Kernel
import proofs.«108833_j80487687127273_1_alg».proof.Proof.Gen.KernelIdeal
import proofs.«108833_j80487687127273_1_alg».proof.Proof.Gen.ReferenceIdeal
import proofs.«108833_j80487687127273_1_alg».proof.Proof.Gen.Pre_finite_inputs
import proofs.«108833_j80487687127273_1_alg».proof.Proof.Gen.ReferenceIdeal.Run
import proofs.«108833_j80487687127273_1_alg».proof.Proof.Gen.ReferenceIdeal.Read
import proofs.«108833_j80487687127273_1_alg».proof.Proof.KernelWhole
import proofs.«108833_j80487687127273_1_alg».proof.Proof.KernelIdealWhole
import proofs.«108833_j80487687127273_1_alg».proof.Proof.KernelIdealTail
import proofs.«108833_j80487687127273_1_alg».proof.Proof.KernelIdealProduct
import proofs.«108833_j80487687127273_1_alg».proof.Proof.RefMean
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Whole.frame m ρ

/-- The same program read at the ideal values runs and keeps its arguments. -/
theorem frame_kernel_ideal : Cert.frame_KernelIdeal := fun m ρ _ => Cert.KernelIdeal.Whole.frame m ρ

/-- The reference runs and keeps its arguments: its run read back, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the same mean: the kernel program's product array is the reference's matrix product, and
    the operations after it are the same function of it and of the same arguments. -/
theorem algebraic : Cert.algebraic_KernelIdeal_ReferenceIdeal := by
  intro m ρ m' ρ' _ hagree
  refine ⟨fun c => Cert.KernelIdeal.Whole.atExit m c Cert.KernelIdeal.main_v61, ?_, ?_⟩
  · exact (θ_run Cert.KernelIdeal.defs _ _).mono
      (fun _ h c => ⟨(h c).2 Cert.KernelIdeal.main_v61 (Pipeline.mem_restRefs_of Cert.KernelIdeal.main_v61 rfl (by decide)),
        Cert.KernelIdeal.Whole.args_kept m h c⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    show Cert.ReferenceIdeal.Value.res_main_v61 m' c = Cert.KernelIdeal.Whole.atExit m c Cert.KernelIdeal.main_v61
    rw [Cert.ReferenceIdeal.RefValue.result_eq, Cert.KernelIdeal.Tail.exit_value, Cert.KernelIdeal.Product.final_product,
      h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
